-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x4096 : Shape := ⟨2, ![4096, 4096]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x4096x2 .f32) (main_arg1 : IVec S4096x4096 32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_c_0 : IVec S_ 32 := constantI S_ 32 0#32
  let main_v4 : IVec S4096x4096 32 := broadcastInDim S4096x4096 ![] bcast_S_S4096x4096 main_c_0
  let main_v5 : IVec S4096x4096 1 := cmpi .eq main_arg1 main_v4
  let main_c_1 : IVec S_ 32 := constantI S_ 32 1#32
  let main_v6 : IVec S4096x4096 32 := broadcastInDim S4096x4096 ![] bcast_S_S4096x4096 main_c_1
  let main_v7 : IVec S4096x4096 1 := cmpi .eq main_arg1 main_v6
  let main_v8 : IVec S4096x4096 1 := ori main_v5 main_v7
  let main_c_2 : IVec S_ 1 := constantI S_ 1 1#1
  let main_v9 : IVec S_ 1 := (fun x v => Host.reduce IntOp.andi x v reducesTo_S4096x4096_S_d0_1 h_S_) main_v8 main_c_2
  let main_v10 : IVec S_ 1 := andi main_v3 main_v9
  main_v10
-- ==== Kernel.lean ====
abbrev S4096x4096x2 : Shape := ⟨3, ![4096, 4096, 2]⟩
abbrev S4096x4096 : Shape := ⟨2, ![4096, 4096]⟩
abbrev S4096x4096x1 : Shape := ⟨3, ![4096, 4096, 1]⟩
abbrev S8x8x128 : Shape := ⟨3, ![8, 8, 128]⟩
abbrev S512x1024 : Shape := ⟨2, ![512, 1024]⟩
abbrev S1x8x128 : Shape := ⟨3, ![1, 8, 128]⟩
abbrev S512x1 : Shape := ⟨2, ![512, 1]⟩
abbrev S512 : Shape := ⟨1, ![512]⟩
abbrev S1 : Shape := ⟨1, ![1]⟩
abbrev S1x1 : Shape := ⟨2, ![1, 1]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4096x4096x2, .f32⟩
  | .hbm, ⟨1, _⟩ => ⟨S4096x4096, .i32⟩
  | .hbm, ⟨2, _⟩ => ⟨S4096x4096x1, .f32⟩
  | .hbm, ⟨3, _⟩ => ⟨S4096x4096, .f32⟩
  | .hbm, ⟨4, _⟩ => ⟨S4096x4096x1, .f32⟩
  | .hbm, ⟨5, _⟩ => ⟨S4096x4096, .f32⟩
  | .hbm, ⟨6, _⟩ => ⟨S8x8x128, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .i32⟩
  | .local _ .vmem, ⟨5, _⟩ => ⟨S512x1024, .i32⟩
  | .local _ .vmem, ⟨6, _⟩ => ⟨S1x8x128, .f32⟩
  | .local _ .vmem, ⟨7, _⟩ => ⟨S1x8x128, .f32⟩
  | .local _ .vmem, ⟨8, _⟩ => ⟨S512x1, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_23 : BitVec 32 := 0#32
  let v65 : BitVec 1 := Scalar.cmpi .ne v64 c0_i32_23
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .i32 = 32 ∨ (Rect.block (s := S4096x4096) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096x2 : Shape := ⟨3, ![4096, 4096, 2]⟩
abbrev S4096x4096 : Shape := ⟨2, ![4096, 4096]⟩
abbrev S4096x4096x1 : Shape := ⟨3, ![4096, 4096, 1]⟩
abbrev S1x1x2 : Shape := ⟨3, ![1, 1, 2]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x4096, .i32⟩
  | .hbm, ⟨2, _⟩ => ⟨S4096x4096x1, .i32⟩
  | .hbm, ⟨3, _⟩ => ⟨S1x1x2, .i32⟩
  | .hbm, ⟨4, _⟩ => ⟨S4096x4096x2, .i32⟩
  | .hbm, ⟨5, _⟩ => ⟨S4096x4096x2, .i32⟩
  | .hbm, ⟨6, _⟩ => ⟨S4096x4096x2, .i1⟩
  | .hbm, ⟨7, _⟩ => ⟨S4096x4096x2, .f32⟩
  | .hbm, ⟨8, _⟩ => ⟨S_, .f32⟩
  | .hbm, ⟨9, _⟩ => ⟨S4096x4096x2, .f32⟩
  | .hbm, ⟨10, _⟩ => ⟨S4096x4096x2, .f32⟩
  | .hbm, ⟨11, _⟩ => ⟨S4096x4096x2, .f32⟩
  | .hbm, ⟨12, _⟩ => ⟨S4096x4096x2, .f32⟩
  | .hbm, ⟨13, _⟩ => ⟨S4096x4096x2, .f32⟩
  | .hbm, ⟨14, _⟩ => ⟨S4096x4096x2, .f32⟩
  | .hbm, ⟨15, _⟩ => ⟨S4096x4096x2, .f32⟩
  | .hbm, ⟨16, _⟩ => ⟨S4096x4096x2, .f32⟩
  | .hbm, ⟨17, _⟩ => ⟨S4096x4096x2, .f32⟩
  | .hbm, ⟨18, _⟩ => ⟨S_, .f32⟩
  | .hbm, ⟨19, _⟩ => ⟨S4096x4096x2, .f32⟩
  | .hbm, ⟨20, _⟩ => ⟨S4096x4096x2, .f32⟩
  | .hbm, ⟨21, _⟩ => ⟨S_, .f32⟩
  | .hbm, ⟨22, _⟩ => ⟨S4096x4096x2, .f32⟩
  | .hbm, ⟨23, _⟩ => ⟨S4096x4096x2, .f32⟩
  | .hbm, ⟨24, _⟩ => ⟨S4096x4096x2, .f32⟩
  | .hbm, ⟨25, _⟩ => ⟨S4096x4096x2, .f32⟩
  | .hbm, ⟨26, _⟩ => ⟨S_, .f32⟩
  | .hbm, ⟨27, _⟩ => ⟨S4096x4096x2, .f32⟩
  | .hbm, ⟨28, _⟩ => ⟨S4096x4096x2, .f32⟩
  | .hbm, ⟨29, _⟩ => ⟨S_, .f32⟩
  | .hbm, ⟨30, _⟩ => ⟨S4096x4096x2, .f32⟩
  | .hbm, ⟨31, _⟩ => ⟨S4096x4096x2, .f32⟩
  | .hbm, ⟨32, _⟩ => ⟨S4096x4096x2, .f32⟩
  | .hbm, ⟨33, _⟩ => ⟨S4096x4096x2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  bcast_S1x1x2_S4096x4096x2_0_1_2 : S1x1x2.BroadcastsInDim S4096x4096x2 (![0, 1, 2] : Fin 3 → Fin S4096x4096x2.rank)
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel

variable [Facts₀]

class Facts : Prop extends Facts₀ where

variable [Facts]
-- ==== Proof.KernelPieces.lean ====
/-
  What the kernel body leaves behind at one grid point, as values.

  At every point the body adds to the carried column of 512 partial sums the row sums of its tile's focal terms;
  at the first point of a row block the column starts from zero, and at the last point the body also stores, in
  every entry of the [1, 8, 128] output block, the sum of the column's 512 entries.
-/
import proofs.«420436_j37830071943314_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.FocalVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the column of partial sums: the column `acc` plus the row sums of the tile's focal terms,
    the tile being the two logit blocks `x0`, `x1` and the label block `x2`. -/
def step (x0 x1 : Vec F S512x1024 .f32) (x2 : Vec F S512x1024 .i32) (acc : Vec F S512x1 .f32) : Vec F S512x1 .f32 :=
  k0_pay1 (k0_pay5 x2) (k0_pay6 x0 x2) (k0_pay7 x1 x2) (k0_pay8 x1) acc

/-- The column the first point of a row block starts from: all zeros. -/
abbrev zeroCol : Vec F S512x1 .f32 := k0_pay3

/-- The output block the last point of a row block stores: every entry the sum of the column. -/
abbrev total (acc : Vec F S512x1 .f32) : Vec F S1x8x128 .f32 := k0_pay2 acc

/-- A middle point leaves the column it found, updated. -/
theorem sout_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .i32) (harg4 : arg4.IsWhole) (arg5 : Memref sig .tc .vmem S1x8x128 .f32) (harg5 : arg5.IsWhole) (arg6 : Memref sig .tc .vmem S512x1 .f32) (harg6 : arg6.IsWhole) (hc0 : ¬cond0_0 i) (hc1 : ¬cond0_1 i)
    (x0 : Vec F S512x1024 .f32) (x1 : Vec F S512x1024 .f32) (x2 : Vec F S512x1024 .i32) (xs0 : Vec F S512x1 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  unfold step
  simp only [View.readAt_eq_ld, harg2.read_unread, harg3.read_unread, harg4.read_unread, harg6.read_unread,
    View.ld_unit_zero (S := S512x1024) hz2, View.ld_unit_zero (S := S512x1) hz2]

/-- The last point of a row block leaves the column it found, updated, -/
theorem sout_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .i32) (harg4 : arg4.IsWhole) (arg5 : Memref sig .tc .vmem S1x8x128 .f32) (harg5 : arg5.IsWhole) (arg6 : Memref sig .tc .vmem S512x1 .f32) (harg6 : arg6.IsWhole) (hc0 : ¬cond0_0 i) (hc1 : cond0_1 i)
    (x0 : Vec F S512x1024 .f32) (x1 : Vec F S512x1024 .f32) (x2 : Vec F S512x1024 .i32) (xs0 : Vec F S512x1 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  unfold step
  simp only [View.readAt_eq_ld, harg2.read_unread, harg3.read_unread, harg4.read_unread, harg6.read_unread,
    View.ld_unit_zero (S := S512x1024) hz2, View.ld_unit_zero (S := S512x1) hz2]

/-- and in the output block the sum of that updated column. -/
theorem out_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .i32) (harg4 : arg4.IsWhole) (arg5 : Memref sig .tc .vmem S1x8x128 .f32) (harg5 : arg5.IsWhole) (arg6 : Memref sig .tc .vmem S512x1 .f32) (harg6 : arg6.IsWhole) (hc0 : ¬cond0_0 i) (hc1 : cond0_1 i)
    (x0 : Vec F S512x1024 .f32) (x1 : Vec F S512x1024 .f32) (x2 : Vec F S512x1024 .i32) (xs0 : Vec F S512x1 .f32) :
    out0_C_3 c i arg2 harg2 arg3 harg3 arg4 harg4 arg5 harg5 arg6 harg6 hc0 hc1 x0 x1 x2 xs0 = total (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  unfold total step
  simp only [View.readAt_eq_ld, harg2.read_unread, harg3.read_unread, harg4.read_unread, harg6.read_unread,
    View.ld_unit_zero (S := S512x1024) hz2, View.ld_unit_zero (S := S512x1) hz2, View.readCov_unit_zero (S := S512x1) _ hz2]

/-- The first point of a row block leaves the zero column, updated. -/
theorem sout_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .i32) (harg4 : arg4.IsWhole) (arg5 : Memref sig .tc .vmem S1x8x128 .f32) (harg5 : arg5.IsWhole) (arg6 : Memref sig .tc .vmem S512x1 .f32) (harg6 : arg6.IsWhole) (hc0 : cond0_0 i) (hc1 : ¬cond0_1 i)
    (x0 : Vec F S512x1024 .f32) (x1 : Vec F S512x1024 .f32) (x2 : Vec F S512x1024 .i32) :
    sout0_A_0 c i arg2 harg2 arg3 harg3 arg4 harg4 arg5 harg5 arg6 harg6 hc0 hc1 x0 x1 x2 = step x0 x1 x2 zeroCol := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x1) hz2, View.readCov_unit_zero (S := S512x1) _ hz2]
  unfold step
  simp only [View.readAt_eq_ld, harg2.read_unread, harg3.read_unread, harg4.read_unread, harg6.read_unread,
    View.ld_unit_zero (S := S512x1024) hz2, View.ld_unit_zero (S := S512x1) hz2]

end Cert.KernelIdeal.FocalVal

end
-- ==== Proof.KernelAcc.lean ====
/-
  The column of partial sums after each grid point, and the output array the kernel's region leaves.

  The 32 points run row block by row block (point `4 a + p` is column block `p` of row block `a`). The column
  restarts from zero at `p = 0` and is updated at every point; at `p = 3` the sum of its 512 entries is stored in
  every entry of output block `a`.
-/
import proofs.«420436_j37830071943314_1_alg».proof.Proof.KernelPieces

noncomputable section

open Idealize.ShloMosaic Idealize.ShloMosaic.TcCoe Idealize.SL.Sem
open Idealize.ShloMosaic.Pipeline (Dat)

namespace Cert.KernelIdeal.FocalVal

open Cert.KernelIdeal Cert.KernelIdeal.Gen

variable {F : FTy → Type} [FloatOps F]
variable (m : (ℓ : Loc nD τ sig) → Buf (Elt F) ℓ) (ρ : Dev nD → PrngReg)

/-- The three blocks a point reads: channel 0's logits, channel 1's logits, the labels. -/
abbrev blk0 (c : Dev nD) (t : Fin cfg0.N) : Vec F S512x1024 .f32 := iblk m c 0 t
abbrev blk1 (c : Dev nD) (t : Fin cfg0.N) : Vec F S512x1024 .f32 := iblk m c 1 t
abbrev blk2 (c : Dev nD) (t : Fin cfg0.N) : Vec F S512x1024 .i32 := iblk m c 2 t

/-- The column of partial sums after point `n`: restarted from zero at the points divisible by 4, updated by the
    point's tile at every point. -/
def col (c : Dev nD) : (n : ℕ) → n < cfg0.N → Vec F S512x1 .f32
  | 0, h => step (blk0 m c ⟨0, h⟩) (blk1 m c ⟨0, h⟩) (blk2 m c ⟨0, h⟩) zeroCol
  | n + 1, h =>
    if (n + 1) % 4 = 0 then step (blk0 m c ⟨n + 1, h⟩) (blk1 m c ⟨n + 1, h⟩) (blk2 m c ⟨n + 1, h⟩) zeroCol
    else step (blk0 m c ⟨n + 1, h⟩) (blk1 m c ⟨n + 1, h⟩) (blk2 m c ⟨n + 1, h⟩) (col c n (Nat.lt_of_succ_lt h))

theorem col_restart (c : Dev nD) (n : ℕ) (h : n < cfg0.N) (h0 : n % 4 = 0) :
    col m c n h = step (blk0 m c ⟨n, h⟩) (blk1 m c ⟨n, h⟩) (blk2 m c ⟨n, h⟩) zeroCol := by
  cases n with
  | zero => rfl
  | succ n => exact if_pos h0

theorem col_update (c : Dev nD) (n : ℕ) (h : n + 1 < cfg0.N) (h0 : ¬(n + 1) % 4 = 0) :
    col m c (n + 1) h = step (blk0 m c ⟨n + 1, h⟩) (blk1 m c ⟨n + 1, h⟩) (blk2 m c ⟨n + 1, h⟩) (col m c n (Nat.lt_of_succ_lt h)) :=
  if_neg h0

theorem col_congr (c : Dev nD) {n n' : ℕ} (e : n = n') (h : n < cfg0.N) (h' : n' < cfg0.N) : col m c n h = col m c n' h' := by
  subst e; rfl

/-- The scratch the region carries holds that column after every point. -/
theorem scratch_eq (c : Dev nD) : ∀ (n : ℕ) (h : n < cfg0.N), (outsAt0 m c n h).2 = col m c n h
  | 0, h => by
    rw [outsAt0_A m c ⟨0, h⟩ (Nat.zero_mod _) (by dsimp only; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have ih := scratch_eq c n (Nat.lt_of_succ_lt h)
    by_cases h0 : (n + 1) % 4 = 0
    · have h1 : ¬(n + 1) % 4 = 3 := by omega
      rw [outsAt0_A m c ⟨n + 1, h⟩ h0 h1, col_restart m c (n + 1) h h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
    · rw [col_update m c n h h0, ← ih]
      by_cases h1 : (n + 1) % 4 = 3
      · rw [outsAt0_C m c ⟨n + 1, h⟩ h0 h1]
        dsimp only
        exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2
      · rw [outsAt0_B m c ⟨n + 1, h⟩ h0 h1]
        dsimp only
        exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2

/-- At the last point of a row block the output's staging buffer holds the sum of the column. -/
theorem out_eq (c : Dev nD) (t : Fin cfg0.N) (h1 : t.val % 4 = 3) :
    (outsAt0 m c t.val t.isLt).1 = total (col m c t.val t.isLt) := by
  obtain ⟨n, h⟩ := t
  cases n with
  | zero => exact absurd h1 (by dsimp only; omega)
  | succ n =>
    have h0 : ¬(n + 1) % 4 = 0 := by dsimp only at h1; omega
    rw [outsAt0_C m c ⟨n + 1, h⟩ h0 h1, col_update m c n h h0, ← scratch_eq m c n (Nat.lt_of_succ_lt h)]
    dsimp only
    exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2

end Cert.KernelIdeal.FocalVal

end
-- ==== Proof.KernelOut.lean ====
/-
  The array the kernel's region leaves and the scalar the host lines after it compute from that array.

  Output block `a` of the [8, 8, 128] array is written back once, after point `4 a + 3`, and holds in every entry the
  sum of the column of partial sums of row block `a`. The host then adds the eight entries `(a, 0, 0)` and divides by
  the number of focal terms.
-/
import proofs.«420436_j37830071943314_1_alg».proof.Proof.KernelAcc
import Idealize.ShloMosaic.Lib.StableHlo.Run

noncomputable section

open Idealize.ShloMosaic Idealize.ShloMosaic.TcCoe Idealize.SL.Sem
open Idealize.ShloMosaic.Pipeline (Dat)

namespace Cert.KernelIdeal.FocalVal

open Cert.KernelIdeal Cert.KernelIdeal.Gen

variable {F : FTy → Type} [FloatOps F]
variable (m : (ℓ : Loc nD τ sig) → Buf (Elt F) ℓ) (ρ : Dev nD → PrngReg)

/-- The last point of row block `a` is a point of the grid. -/
theorem last_lt (a : ℕ) (ha : a < 8) : 4 * a + 3 < cfg0.N := by
  rw [show cfg0.N = 32 from N_0]; omega

/-- The array the region leaves: entry `(a, s, l)` is the sum of the column after the last point of row block `a`. -/
def outArr (c : Dev nD) : Vec F S8x8x128 .f32 := fun i =>
  total (col m c (4 * (i 0).val + 3) (last_lt _ (i 0).isLt))
    (fun d => match d with | ⟨0, _⟩ => ⟨0, Nat.one_pos⟩ | ⟨1, _⟩ => i 1 | ⟨2, _⟩ => i 2)

/-- The same entry, named by the point and by an index of the block. -/
theorem outArr_apply (c : Dev nD) (i : S8x8x128.Idx) (n : ℕ) (h : n < cfg0.N) (hn : n = 4 * (i 0).val + 3)
    (y : S1x8x128.Idx) (hy1 : (y 1).val = (i 1).val) (hy2 : (y 2).val = (i 2).val) :
    outArr m c i = total (col m c n h) y := by
  subst hn
  unfold outArr
  congr 1
  funext d
  apply Fin.ext
  match d with
  | ⟨0, _⟩ => have h0 : (y 0).val < 1 := (y 0).isLt; show 0 = (y 0).val; omega
  | ⟨1, _⟩ => exact hy1.symm
  | ⟨2, _⟩ => exact hy2.symm

/-- The output window's block index at a point: the point's row block, and nothing else moves. -/
theorem idx_facts3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)

/-- What a write-back flushes is its block of that array. -/
theorem flushed_eq (c : Dev nD) (t : Fin cfg0.N) (hf : (cfg0.win 3).flush t = true) :
    (dats m 0 c).flushed 3 t = ((cfg0.win 3).blk t).view.read (Elt F) (outArr m c) := by
  have h3 : t.val % 4 = 3 := (flush0_3 t).mp hf
  show (cfg0.win 3).cut (grid0.coords t) ((dats m 0 c).after 3 t) = _
  rw [after0_3, out_eq m c t h3]
  obtain ⟨e0, e1, e2⟩ := idx_facts3 t
  funext y
  rw [View.read_apply]
  have hy0 : (y 0).val = 0 := by have h0 : (y 0).val < 1 := (y 0).isLt; omega
  exact (outArr_apply m c _ t.val t.isLt
    (by show t.val = 4 * (win0_3.index t (0 : Fin 3) * 1 + 1 * (y 0).val) + 3; omega) y
    (by show (y 1).val = win0_3.index t (1 : Fin 3) * 8 + 1 * (y 1).val; omega)
    (by show (y 2).val = win0_3.index t (2 : Fin 3) * 128 + 1 * (y 2).val; omega)).symm

/-- An index of the array is in a point's block iff each coordinate is in the block's range on its axis. -/
theorem mem_blk3 (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v4).slice (win0_3.rect t)).set ↔ _
  rw [View.set_slice_whole, Rect.mem_set_unit]
  exact Iff.rfl

/-- Every index is in the block written back after the last point of its row block. -/
theorem cover (c : Dev nD) (i : S8x8x128.Idx) :
    ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  refine ⟨⟨4 * (i 0).val + 3, last_lt _ hi0⟩, (flush0_3 _).mpr (by show (4 * (i 0).val + 3) % 4 = 3; omega), ?_⟩
  obtain ⟨e0, e1, e2⟩ := idx_facts3 ⟨4 * (i 0).val + 3, last_lt _ hi0⟩
  have e0' : win0_3.index ⟨4 * (i 0).val + 3, last_lt _ hi0⟩ (0 : Fin 3) = (i 0).val := by rw [e0]; show (4 * (i 0).val + 3) / 4 = _; omega
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- So the region leaves that array. -/
theorem final_out (c : Dev nD) : (dats m 0 c).arrAt 3 cfg0.N = outArr m c :=
  (dats m 0 c).arrAt_eq_of_cover 3 (outArr m c) (flushed_eq m c) (cover c)

/-- The scalar the host lines after the region compute: the eight entries `(a, 0, 0)` added up from zero, divided by
    the number of focal terms. -/
def result (c : Dev nD) : Vec F S_ .f32 :=
  Host.divf (Host.reduceAdd (shapeCast S8 (extractStridedSlice S8x1x1 ![0, 0, 0] (outArr m c) slices_S8x8x128_S8x1x1_0_0_0) shapeCasts_S8x1x1_S8)
    (constant S_ .f32 0x00000000#32) reducesTo_S8_S_d0 h_S_) (constant S_ .f32 0x4C000000#32)

/-- The run, read: the result buffer ends at that scalar, the arguments unchanged. -/
theorem run : θ_run defs (onTc (τ := τ) (main (F := F))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by
      refine ((h c).2 main_v8 (Pipeline.mem_restRefs_of main_v8 (by decide) (by decide))).trans ?_
      unfold Pipeline.afterTail₀
      show StableHlo.after hostOps1 _ (Proc.devRef .tc main_v8) = _
      after_results
      rw [show Pipeline.withArrays (cfgs 0).spec c (V0 m c) (fun w => (dats m 0 c).arrAt w (cfgs 0).N) (Proc.tc.devRef main_v4)
          = outArr m c from (Pipeline.withArrays_arr spec0 launch0.win.arr_inj c _ _ 3).trans (final_out m c)]
      rfl,
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩)
    (run_main m ρ)

end Cert.KernelIdeal.FocalVal

end
-- ==== Proof.FocalDefs.lean ====
/-
  The focal-loss term of one logit, as a function on the extended reals, in the two spellings the programs use.

  With `ts` the label indicator of the logit's channel, `bce x ts = max x 0 - x * ts + log (1 + exp (-|x|))` is the
  binary cross entropy of the logit `x`, and the focal term is `(ts * (-1/2) + 3/4) * (1 - exp (-bce))^2 * bce`.
  One spelling raises `1 - exp (-bce)` to the power `2.0` and negates by `-·`; the other multiplies it by itself
  and negates by `0 - ·`. The float words are kept as the words the programs print: -1/2 is `0xBF000000`, 3/4 is
  `0x3F400000`, 1 is `0x3F800000`, 2 is `0x40000000`, 0 is `0x00000000`; `|x|` is `max x (-x)`.
-/
import Idealize.ShloMosaic.PureOps.Ideal

noncomputable section

namespace Cert.Focal

open Idealize.ShloMosaic

/-- Binary cross entropy of the logit `x` against the indicator `ts`, negating by `-·`. -/
def bce (x ts : EReal) : EReal :=
  (max x (Ideal.ofBits .f32 0x00000000#32) - x * ts) + Ideal.log1p (Ideal.exp (-(max x (-x))))

/-- The focal term with the square spelt as the power `2.0`. -/
def focal (x ts : EReal) : EReal :=
  ((ts * Ideal.ofBits .f32 0xBF000000#32 + Ideal.ofBits .f32 0x3F400000#32)
    * Ideal.pow (Ideal.ofBits .f32 0x3F800000#32 - Ideal.exp (-(bce x ts))) (Ideal.ofBits .f32 0x40000000#32)) * bce x ts

/-- Binary cross entropy of the logit `x` against the indicator `ts`, negating by `0 - ·`. -/
def bceK (x ts : EReal) : EReal :=
  (max x (Ideal.ofBits .f32 0x00000000#32) - x * ts)
    + Ideal.log1p (Ideal.exp (Ideal.ofBits .f32 0x00000000#32 - max x (-x)))

/-- The focal term with the square spelt as a product. -/
def focalK (x ts : EReal) : EReal :=
  ((ts * Ideal.ofBits .f32 0xBF000000#32 + Ideal.ofBits .f32 0x3F400000#32)
    * ((Ideal.ofBits .f32 0x3F800000#32 - Ideal.exp (Ideal.ofBits .f32 0x00000000#32 - bceK x ts))
      * (Ideal.ofBits .f32 0x3F800000#32 - Ideal.exp (Ideal.ofBits .f32 0x00000000#32 - bceK x ts)))) * bceK x ts

end Cert.Focal

end
-- ==== Proof.KernelRead.lean ====
/-
  The kernel's payloads read at the extended reals, entry by entry.

  One point's update adds to each of the 512 column entries the sum over the tile's 1024 columns of the two channels'
  focal terms; the zero column is zero; and the stored total is the sum of the 512 column entries.
-/
import proofs.«420436_j37830071943314_1_alg».proof.Proof.KernelOut
import proofs.«420436_j37830071943314_1_alg».proof.Proof.FocalDefs
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.FocalVal

open Cert.KernelIdeal Cert.KernelIdeal.Gen Cert.Focal

/-- The two channels' focal terms at one position: channel 0 against the indicator `1 - label`, channel 1 against
    the indicator `label`, the label read as a signed integer. -/
def tileTerm (a b : EReal) (w : BitVec 32) : EReal :=
  focalK a (Ideal.ofBits .f32 0x3F800000#32 - ((w.toInt : ℝ) : EReal)) + focalK b ((w.toInt : ℝ) : EReal)

/-- The tile of focal terms a point adds up, entry by entry. -/
theorem tile_apply (x0 x1 : Vec Ideal S512x1024 .f32) (x2 : Vec Ideal S512x1024 .i32) (j : S512x1024.Idx) :
    addf (k0_pay6 (F := Ideal) x0 x2)
      (mulf (mulf (addf (mulf (k0_pay5 x2) (broadcast S512x1024 (Scalar.ofBits .f32 0xBF000000#32))) (broadcast S512x1024 (Scalar.ofBits .f32 0x3F400000#32)))
        (mulf (subf (broadcast S512x1024 (Scalar.ofBits .f32 0x3F800000#32)) (exp (subf (broadcast S512x1024 (Scalar.ofBits .f32 0x00000000#32)) (addf (k0_pay7 x1 x2) (log1p (exp (k0_pay8 x1)))))))
          (subf (broadcast S512x1024 (Scalar.ofBits .f32 0x3F800000#32)) (exp (subf (broadcast S512x1024 (Scalar.ofBits .f32 0x00000000#32)) (addf (k0_pay7 x1 x2) (log1p (exp (k0_pay8 x1)))))))))
        (addf (k0_pay7 x1 x2) (log1p (exp (k0_pay8 x1))))) j
    = tileTerm (x0 j) (x1 j) (x2 j) := by
  unfold k0_pay6 k0_pay7 k0_pay8 k0_pay5 k0_pay4
  simp only [shapeCast_self]
  rfl

/-- The zero column is zero. -/
theorem zeroCol_apply (y : S512x1.Idx) : (zeroCol (F := Ideal)) y = 0 := by
  show k0_pay3 (F := Ideal) y = 0
  unfold k0_pay3
  simp only [shapeCast_self]
  exact Ideal.ofBits_zero_f32

/-- The index a sum along the columns reads: row `r`, column `l`. -/
theorem lift_cols (r : Fin 512) (l : Fin 1024) :
    reduces_S512x1024_S512.lift (ix1 r) l = ix2 r l := by
  funext d
  apply Fin.ext
  match d with
  | ⟨0, _⟩ => rfl
  | ⟨1, _⟩ => rfl

/-- One point's update, entry by entry: the column entry plus the sum over the tile's row of the focal terms. -/
theorem step_apply (x0 x1 : Vec Ideal S512x1024 .f32) (x2 : Vec Ideal S512x1024 .i32) (acc : Vec Ideal S512x1 .f32) (r : Fin 512) :
    step x0 x1 x2 acc (ix2 r (0 : Fin 1))
      = acc (ix2 r (0 : Fin 1)) + ∑ l : Fin 1024, tileTerm (x0 (ix2 r l)) (x1 (ix2 r l)) (x2 (ix2 r l)) := by
  unfold step k0_pay1
  simp only [shapeCast_self]
  rw [addf_apply]
  congr 1
  rw [shapeCast_apply _ _ _ (ix1 r) (by rw [Shape.rowMajor_val_one, Shape.rowMajor_val_two]; show r.val = r.val * 1 + 0; omega)]
  refine (Ideal.multiReduction_add_single _ 0x00000000#32 reduces_S512x1024_S512 _ _ (ix1 r)).trans ?_
  refine Finset.sum_congr rfl fun l _ => ?_
  have e : reduces_S512x1024_S512.lift (ix1 r) l = ix2 r l := lift_cols r l
  exact (tile_apply x0 x1 x2 _).trans (by rw [e]; rfl)

/-- A [1]-shaped vector has one index. -/
theorem idx1_eq (j j' : S1.Idx) : j = j' := by
  funext d
  apply Fin.ext
  match d with
  | ⟨0, _⟩ => have h1 : (j 0).val < 1 := (j 0).isLt; have h2 : (j' 0).val < 1 := (j' 0).isLt; show (j 0).val = (j' 0).val; omega

/-- The index a sum down the column reads: row `r` of the one column. -/
theorem lift_rows (j : S1.Idx) (r : Fin 512) :
    reduces_S512x1_S1.lift j r = ix2 r (0 : Fin 1) := by
  funext d
  apply Fin.ext
  match d with
  | ⟨0, _⟩ => rfl
  | ⟨1, _⟩ => have h1 : (j 0).val < 1 := (j 0).isLt; show (j 0).val = 0; omega

/-- The stored total, at every entry of the block: the sum of the column's 512 entries. -/
theorem total_apply (acc : Vec Ideal S512x1 .f32) (y : S1x8x128.Idx) :
    total acc y = ∑ r : Fin 512, acc (ix2 r (0 : Fin 1)) := by
  show (multiReduction .add [0] S1 acc 0x00000000#32 reduces_S512x1_S1 (.inl rfl) rfl : FVec Ideal S1 .f32) _ = _
  refine (Ideal.multiReduction_add_single acc 0x00000000#32 reduces_S512x1_S1 _ _ _).trans ?_
  exact Finset.sum_congr rfl fun r _ => congrArg acc (lift_rows _ r)

end Cert.KernelIdeal.FocalVal

end
-- ==== Proof.KernelBlocks.lean ====
/-
  The blocks a grid point reads, as entries of the argument arrays.

  Before the region the host cuts the logits [4096, 4096, 2] into their two channels, each a [4096, 4096] plane;
  point `t` (row block `t / 4`, column block `t % 4`) reads from each plane, and from the labels, the tile whose entry
  `(r, l)` is row `512 (t / 4) + r`, column `1024 (t % 4) + l`.
-/
import proofs.«420436_j37830071943314_1_alg».proof.Proof.KernelAcc
import Idealize.ShloMosaic.Lib.ValueIdx
import Idealize.ShloMosaic.Lib.StableHlo.Run

noncomputable section

open Idealize.ShloMosaic Idealize.ShloMosaic.TcCoe Idealize.SL.Sem
open Idealize.ShloMosaic.ValueIdx

namespace Cert.KernelIdeal.FocalVal

open Cert.KernelIdeal Cert.KernelIdeal.Gen

variable {F : FTy → Type} [FloatOps F]
variable (m : (ℓ : Loc nD τ sig) → Buf (Elt F) ℓ)

/-- The plane of channel 0 the region finds: the slice of the logits at channel 0, its unit axis dropped. -/
theorem V_v1 (c : Dev nD) : V m c main_v1
    = shapeCast S4096x4096 (extractStridedSlice S4096x4096x1 ![0, 0, 0] (m ((c.tc : Thread nD τ).loc main_arg0)) slices_S4096x4096x2_S4096x4096x1_0_0_0) shapeCasts_S4096x4096x1_S4096x4096 := by
  show StableHlo.after hostOps0 (fun b => m (c, b)) (Proc.devRef .tc main_v1) = _
  after_results
  rfl

/-- The plane of channel 1 likewise. -/
theorem V_v3 (c : Dev nD) : V m c main_v3
    = shapeCast S4096x4096 (extractStridedSlice S4096x4096x1 ![0, 0, 1] (m ((c.tc : Thread nD τ).loc main_arg0)) slices_S4096x4096x2_S4096x4096x1_0_0_1) shapeCasts_S4096x4096x1_S4096x4096 := by
  show StableHlo.after hostOps0 (fun b => m (c, b)) (Proc.devRef .tc main_v3) = _
  after_results
  rfl

/-- A channel's plane at (b, t) is the logits at (b, t, channel). -/
theorem plane_apply (x : S4096x4096x2.Idx → Elt F .f32) (ch : Fin 2) (h : S4096x4096x2.Slices ![0, 0, ch.val] S4096x4096x1)
    (b t : Fin 4096) :
    shapeCast S4096x4096 (extractStridedSlice S4096x4096x1 ![0, 0, ch.val] x h) shapeCasts_S4096x4096x1_S4096x4096 (ix2 b t)
      = x (ix3 b t ch) := by
  rw [shapeCast_apply _ _ _ (ix3 b t (0 : Fin 1)) (by
    rw [Shape.rowMajor_val_three, Shape.rowMajor_val_two]
    show (b.val * 4096 + t.val) * 1 + 0 = b.val * 4096 + t.val; omega)]
  exact extractStridedSlice_apply _ _ _ _ (ix3 b t ch) (fun a => match a with
    | ⟨0, _⟩ => by show b.val = 0 + b.val; omega
    | ⟨1, _⟩ => by show t.val = 0 + t.val; omega
    | ⟨2, _⟩ => by show ch.val = ch.val + 0; omega)

/-- The windows' block indices at a point: its row block and its column block. -/
theorem idx_facts_in : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4 :=
  (by decide +kernel : ∀ t : Fin grid0.N, _)

/-- Channel 0's block at a point, entry by entry. -/
theorem blk0_apply (c : Dev nD) (t : Fin cfg0.N) (r : Fin 512) (l : Fin 1024) (b tt : Fin 4096)
    (hb : b.val = 512 * (t.val / 4) + r.val) (ht : tt.val = 1024 * (t.val % 4) + l.val) :
    blk0 m c t (ix2 r l) = m ((c.tc : Thread nD τ).loc main_arg0) (ix3 b tt (0 : Fin 2)) := by
  obtain ⟨e0, e1, -, -, -, -⟩ := idx_facts_in t
  have hp := plane_apply (m ((c.tc : Thread nD τ).loc main_arg0)) (0 : Fin 2) slices_S4096x4096x2_S4096x4096x1_0_0_0 b tt
  refine Eq.trans ?_ ((congrFun (V_v1 m c) (ix2 b tt)).trans hp)
  show iblk m c 0 t (ix2 r l) = _
  unfold iblk
  rw [View.read_apply]
  show V m c main_v1 _ = V m c main_v1 _
  congr 1
  funext a
  apply Fin.ext
  match a with
  | ⟨0, _⟩ => show win0_0.index t (0 : Fin 2) * 512 + 1 * r.val = b.val; omega
  | ⟨1, _⟩ => show win0_0.index t (1 : Fin 2) * 1024 + 1 * l.val = tt.val; omega

/-- Channel 1's block at a point, entry by entry. -/
theorem blk1_apply (c : Dev nD) (t : Fin cfg0.N) (r : Fin 512) (l : Fin 1024) (b tt : Fin 4096)
    (hb : b.val = 512 * (t.val / 4) + r.val) (ht : tt.val = 1024 * (t.val % 4) + l.val) :
    blk1 m c t (ix2 r l) = m ((c.tc : Thread nD τ).loc main_arg0) (ix3 b tt (1 : Fin 2)) := by
  obtain ⟨-, -, e0, e1, -, -⟩ := idx_facts_in t
  have hp := plane_apply (m ((c.tc : Thread nD τ).loc main_arg0)) (1 : Fin 2) slices_S4096x4096x2_S4096x4096x1_0_0_1 b tt
  refine Eq.trans ?_ ((congrFun (V_v3 m c) (ix2 b tt)).trans hp)
  show iblk m c 1 t (ix2 r l) = _
  unfold iblk
  rw [View.read_apply]
  show V m c main_v3 _ = V m c main_v3 _
  congr 1
  funext a
  apply Fin.ext
  match a with
  | ⟨0, _⟩ => show win0_1.index t (0 : Fin 2) * 512 + 1 * r.val = b.val; omega
  | ⟨1, _⟩ => show win0_1.index t (1 : Fin 2) * 1024 + 1 * l.val = tt.val; omega

/-- The labels' block at a point, entry by entry. -/
theorem blk2_apply (c : Dev nD) (t : Fin cfg0.N) (r : Fin 512) (l : Fin 1024) (b tt : Fin 4096)
    (hb : b.val = 512 * (t.val / 4) + r.val) (ht : tt.val = 1024 * (t.val % 4) + l.val) :
    blk2 m c t (ix2 r l) = m ((c.tc : Thread nD τ).loc main_arg1) (ix2 b tt) := by
  obtain ⟨-, -, -, -, e0, e1⟩ := idx_facts_in t
  rw [← V_main_arg1 m c]
  show iblk m c 2 t (ix2 r l) = _
  unfold iblk
  rw [View.read_apply]
  show V m c main_arg1 _ = V m c main_arg1 _
  congr 1
  funext a
  apply Fin.ext
  match a with
  | ⟨0, _⟩ => show win0_2.index t (0 : Fin 2) * 512 + 1 * r.val = b.val; omega
  | ⟨1, _⟩ => show win0_2.index t (1 : Fin 2) * 1024 + 1 * l.val = tt.val; omega

end Cert.KernelIdeal.FocalVal

end
-- ==== Proof.TileIdx.lean ====
/-
  Where a tile's entry sits in the [4096, 4096] plane: the rows are cut into 8 blocks of 512 and the columns into
  4 blocks of 1024; entry (r, l) of tile (a, p) is row `512 a + r`, column `1024 p + l`.
-/
import Idealize.ShloMosaic.Lib.ValueIdx

namespace Cert.Focal

/-- Row `r` of row block `a`. -/
def rowOf (a : Fin 8) (r : Fin 512) : Fin 4096 := ⟨512 * a.val + r.val, by have := a.isLt; have := r.isLt; omega⟩

/-- Column `l` of column block `p`. -/
def colOf (p : Fin 4) (l : Fin 1024) : Fin 4096 := ⟨1024 * p.val + l.val, by have := p.isLt; have := l.isLt; omega⟩

@[simp] theorem rowOf_val (a : Fin 8) (r : Fin 512) : (rowOf a r).val = 512 * a.val + r.val := rfl
@[simp] theorem colOf_val (p : Fin 4) (l : Fin 1024) : (colOf p l).val = 1024 * p.val + l.val := rfl

end Cert.Focal
-- ==== Proof.KernelScalar.lean ====
/-
  The kernel's result at the extended reals, in terms of the argument arrays.

  With `posTerm b t` the two channels' focal terms at position `(b, t)`, the column of row block `a` ends, at row `r`,
  at the sum over the four column blocks and their 1024 columns of the terms of row `512 a + r`; output block `a`
  holds the sum of those over the 512 rows; and the result is the sum over the 8 row blocks, divided by the count.
-/
import proofs.«420436_j37830071943314_1_alg».proof.Proof.KernelRead
import proofs.«420436_j37830071943314_1_alg».proof.Proof.KernelBlocks
import proofs.«420436_j37830071943314_1_alg».proof.Proof.TileIdx
import Mathlib.Algebra.BigOperators.Fin

noncomputable section

open Idealize.ShloMosaic Idealize.ShloMosaic.TcCoe Idealize.SL.Sem
open Idealize.ShloMosaic.ValueIdx

namespace Cert.KernelIdeal.FocalVal

open Cert.KernelIdeal Cert.KernelIdeal.Gen Cert.Focal

variable (m : (ℓ : Loc nD τ sig) → Buf (Elt Ideal) ℓ)

/-- The two channels' focal terms at position `(b, t)` of the arguments. -/
def posTerm (c : Dev nD) (b t : Fin 4096) : EReal :=
  tileTerm (m ((c.tc : Thread nD τ).loc main_arg0) (ix3 b t (0 : Fin 2))) (m ((c.tc : Thread nD τ).loc main_arg0) (ix3 b t (1 : Fin 2)))
    (m ((c.tc : Thread nD τ).loc main_arg1) (ix2 b t))

/-- What point `4 a + p` adds to row `r` of the column: the terms of row `512 a + r` over column block `p`. -/
theorem row_term (c : Dev nD) (a : Fin 8) (p : Fin 4) (t : Fin cfg0.N) (ht : t.val = 4 * a.val + p.val) (r : Fin 512) :
    ∑ l : Fin 1024, tileTerm (blk0 m c t (ix2 r l)) (blk1 m c t (ix2 r l)) (blk2 m c t (ix2 r l))
      = ∑ l : Fin 1024, posTerm m c (rowOf a r) (colOf p l) := by
  have hp := p.isLt
  refine Finset.sum_congr rfl fun l _ => ?_
  rw [blk0_apply m c t r l (rowOf a r) (colOf p l) (by rw [rowOf_val]; omega) (by rw [colOf_val]; omega),
    blk1_apply m c t r l (rowOf a r) (colOf p l) (by rw [rowOf_val]; omega) (by rw [colOf_val]; omega),
    blk2_apply m c t r l (rowOf a r) (colOf p l) (by rw [rowOf_val]; omega) (by rw [colOf_val]; omega)]
  rfl

/-- The column of row block `a` after its last point, at row `r`. -/
theorem col_last (c : Dev nD) (a : Fin 8) (r : Fin 512) :
    col m c (4 * a.val + 3) (last_lt _ a.isLt) (ix2 r (0 : Fin 1))
      = ∑ p : Fin 4, ∑ l : Fin 1024, posTerm m c (rowOf a r) (colOf p l) := by
  have ha := a.isLt
  have hN : cfg0.N = 32 := N_0
  have h3 : 4 * a.val + 2 + 1 < cfg0.N := by omega
  have h2 : 4 * a.val + 1 + 1 < cfg0.N := by omega
  have h1 : 4 * a.val + 0 + 1 < cfg0.N := by omega
  have h0 : 4 * a.val < cfg0.N := by omega
  show col m c (4 * a.val + 2 + 1) h3 (ix2 r (0 : Fin 1)) = _
  rw [col_update m c (4 * a.val + 2) h3 (by omega), step_apply]
  show col m c (4 * a.val + 1 + 1) h2 (ix2 r (0 : Fin 1)) + _ = _
  rw [col_update m c (4 * a.val + 1) h2 (by omega), step_apply]
  show col m c (4 * a.val + 0 + 1) h1 (ix2 r (0 : Fin 1)) + _ + _ = _
  rw [col_update m c (4 * a.val + 0) h1 (by omega), step_apply]
  show col m c (4 * a.val) h0 (ix2 r (0 : Fin 1)) + _ + _ + _ = _
  rw [col_restart m c (4 * a.val) h0 (by omega), step_apply, zeroCol_apply, zero_add]
  rw [row_term m c a 0 ⟨4 * a.val, h0⟩ (by show 4 * a.val = 4 * a.val + 0; omega) r,
    row_term m c a 1 ⟨4 * a.val + 0 + 1, h1⟩ (by show 4 * a.val + 0 + 1 = 4 * a.val + 1; omega) r,
    row_term m c a 2 ⟨4 * a.val + 1 + 1, h2⟩ (by show 4 * a.val + 1 + 1 = 4 * a.val + 2; omega) r,
    row_term m c a 3 ⟨4 * a.val + 2 + 1, h3⟩ (by show 4 * a.val + 2 + 1 = 4 * a.val + 3; omega) r,
    Fin.sum_univ_four]

/-- An entry of output block `a`: the terms of row block `a`, all of them. -/
theorem outArr_entry (c : Dev nD) (a : Fin 8) :
    outArr m c (ix3 a (0 : Fin 8) (0 : Fin 128))
      = ∑ r : Fin 512, ∑ p : Fin 4, ∑ l : Fin 1024, posTerm m c (rowOf a r) (colOf p l) := by
  unfold outArr
  rw [total_apply]
  exact Finset.sum_congr rfl fun r _ => col_last m c a r

end Cert.KernelIdeal.FocalVal

end
-- ==== Proof.KernelResult.lean ====
/-
  The scalar the kernel's program returns, at the extended reals: the focal terms of every position and both channels,
  added up tile by tile, over the count.
-/
import proofs.«420436_j37830071943314_1_alg».proof.Proof.KernelScalar

noncomputable section

open Idealize.ShloMosaic Idealize.ShloMosaic.TcCoe Idealize.SL.Sem
open Idealize.ShloMosaic.ValueIdx

namespace Cert.KernelIdeal.FocalVal

open Cert.KernelIdeal Cert.KernelIdeal.Gen Cert.Focal

variable (m : (ℓ : Loc nD τ sig) → Buf (Elt Ideal) ℓ)

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun i => i 0, fun a => ix1 a, fun i => (eq_ix1 i).symm, fun _ => rfl⟩ :
    (⟨1, ![n]⟩ : Shape).Idx ≃ Fin n).symm f).symm

/-- The host lines after the region read entry `(a, 0, 0)` of each output block, add the eight up from zero, and
    divide. -/
theorem result_apply (c : Dev nD) (i : S_.Idx) :
    result m c i = Ideal.div (Ideal.ofBits .f32 0x00000000#32
        + ∑ a : Fin 8, ∑ r : Fin 512, ∑ p : Fin 4, ∑ l : Fin 1024, posTerm m c (rowOf a r) (colOf p l))
      (Ideal.ofBits .f32 0x4C000000#32) := by
  unfold result
  simp only [Host.divf, Host.reduceAdd, Ideal.hostReduceAdd_def, Ideal.hostDivf_def]
  refine congrArg₂ Ideal.div ?_ rfl
  refine (Ideal.hostReduceAdd_total reducesTo_S8_S_d0 (fun b => b.elim0) _ _ i).trans ?_
  refine congrArg₂ (· + ·) rfl ?_
  rw [sum_idx1]
  refine Finset.sum_congr rfl fun a _ => ?_
  refine Eq.trans ?_ (outArr_entry m c a)
  rw [shapeCast_apply _ _ _ (ix3 a (0 : Fin 1) (0 : Fin 1)) (by
    rw [Shape.rowMajor_val_three, Shape.rowMajor_val_one]
    show (a.val * 1 + 0) * 1 + 0 = a.val; omega)]
  exact extractStridedSlice_apply _ _ _ _ (ix3 a (0 : Fin 8) (0 : Fin 128)) (fun d => match d with
    | ⟨0, _⟩ => by show a.val = 0 + a.val; omega
    | ⟨1, _⟩ => by show 0 = 0 + 0; omega
    | ⟨2, _⟩ => by show 0 = 0 + 0; omega)

end Cert.KernelIdeal.FocalVal

end
-- ==== Proof.RefValue.lean ====
/-
  The reference's result, read off its run: one extended real, the mean of the focal terms over every
  position and both channels.

  Every stage of the reference reads at an index from its operands at an index, so the summand of the total sum, read
  at the index of one logit, is the focal term of that logit against the indicator of its channel; the label is read
  at the position given by the index's first two coordinates, and the channel's number is the third coordinate. The
  total is the word of 0.0 plus the sum of the summands, and the result is that total divided by the word of the count.
-/
import proofs.«420436_j37830071943314_1_alg».proof.Defs
import proofs.«420436_j37830071943314_1_alg».proof.Proof.Gen.ReferenceIdeal.Run
import proofs.«420436_j37830071943314_1_alg».proof.Proof.Gen.ReferenceIdeal.Read
import proofs.«420436_j37830071943314_1_alg».proof.Proof.FocalDefs
import Idealize.ShloMosaic.Lib.ValueIdx

noncomputable section

namespace Cert.FocalRef

open Idealize.ShloMosaic Idealize.ShloMosaic.ValueIdx Cert.ReferenceIdeal Cert.Focal

/-- The label indicator of channel `ch`: 1 when the label word is the channel's number, else 0. -/
def onehot (w : BitVec 32) (ch : Fin 2) : EReal := (((IntOp.cmpi .eq w (BitVec.ofNat 32 ch.val)).toNat : ℝ) : EReal)

/-- The position a channel's label is read at: the first two coordinates of the logit's index. -/
theorem label_idx (j : S4096x4096x2.Idx) :
    Read.idx_main_call0_v0 (Read.idx_main_call0_v2 j) = ix2 (j 0) (j 1) := by
  funext a
  match a with
  | ⟨0, _⟩ => rfl
  | ⟨1, _⟩ => rfl

/-- The summand of the reference's total: the focal term of one logit against its channel's indicator. -/
theorem term_eq (x0 : (⟨S4096x4096x2, .f32⟩ : BufTy).Contents (Elt Ideal)) (x1 : (⟨S4096x4096, .i32⟩ : BufTy).Contents (Elt Ideal))
    (j : S4096x4096x2.Idx) :
    Read.val_main_v21 (F := Ideal) x0 x1 j = focal (x0 j) (onehot (x1 (ix2 (j 0) (j 1))) (j 2)) := by
  simp only [Read.val_main_v21_apply, Read.val_main_v20_apply, Read.val_main_v19_apply, Read.val_main_v18_apply,
    Read.val_main_v17_apply, Read.val_main_v16_apply, Read.val_main_v15_apply, Read.val_main_v14_apply,
    Read.val_main_v13_apply, Read.val_main_v12_apply, Read.val_main_v11_apply, Read.val_main_v10_apply,
    Read.val_main_v9_apply, Read.val_main_v8_apply, Read.val_main_v7_apply, Read.val_main_v6_apply,
    Read.val_main_v5_apply, Read.val_main_v4_apply, Read.val_main_v3_apply, Read.val_main_v2_apply,
    Read.val_main_v1_apply, Read.val_main_v0_apply, Read.val_main_cst_apply, Read.val_main_cst_0_apply,
    Read.val_main_cst_1_apply, Read.val_main_cst_2_apply, Read.val_main_cst_3_apply,
    Read.val_main_call0_v4_apply, Read.val_main_call0_v3_apply, Read.val_main_call0_v2_apply,
    Read.val_main_call0_v1_apply, Read.val_main_call0_v0_apply, label_idx]
  rfl

/-- The reference's result: the sum of the focal terms over every position and both channels, started from the word
    of 0.0, divided by the word the program prints for the count. -/
theorem ref_read (x0 : (⟨S4096x4096x2, .f32⟩ : BufTy).Contents (Elt Ideal)) (x1 : (⟨S4096x4096, .i32⟩ : BufTy).Contents (Elt Ideal)) (i : S_.Idx) :
    Cert.ReferenceIdeal.Read.val_main_v23 (F := Ideal) x0 x1 i
      = Ideal.div (Ideal.ofBits .f32 0x00000000#32 + ∑ j : S4096x4096x2.Idx, focal (x0 j) (onehot (x1 (ix2 (j 0) (j 1))) (j 2)))
          (Ideal.ofBits .f32 0x4C000000#32) := by
  rw [Read.val_main_v23_apply, Read.val_main_v22_apply, Read.val_main_cst_4_apply, Read.val_main_cst_5_apply,
    Ideal.hostDivf_def, Ideal.ofBits_def, Ideal.ofBits_def]
  simp only [term_eq]

end Cert.FocalRef

end
-- ==== Proof.LibReal.lean ====
/-
  Finite extended reals. An extended real is FINITE when it is the image of a real number; the finite ones are closed
  under the ring operations and under finite sums, which is what lets a law of the reals (distributivity, cancelling a
  common factor) be used on values computed from finite inputs by sums and products.
-/
import Mathlib.Data.EReal.Operations
import Mathlib.Algebra.BigOperators.Group.Finset.Basic

namespace Cert

/-- `x` is a real number seen in the extended reals. -/
def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

/-- A finite sum of finite extended reals is finite. -/
theorem sum {ι : Type*} (s : Finset ι) (f : ι → EReal) (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

/-- The real number a finite extended real is. -/
noncomputable def val {x : EReal} (hx : IsReal x) : ℝ := hx.choose

theorem val_spec {x : EReal} (hx : IsReal x) : x = (hx.val : EReal) := hx.choose_spec

/-- A family of finite extended reals is the image of a family of reals. -/
theorem exists_fun {ι : Type*} (f : ι → EReal) (hf : ∀ i, IsReal (f i)) : ∃ g : ι → ℝ, f = fun i => (g i : EReal) :=
  ⟨fun i => (hf i).val, funext fun i => (hf i).val_spec⟩

theorem ne_top {x : EReal} (hx : IsReal x) : x ≠ ⊤ := by obtain ⟨a, rfl⟩ := hx; exact EReal.coe_ne_top a

theorem ne_bot {x : EReal} (hx : IsReal x) : x ≠ ⊥ := by obtain ⟨a, rfl⟩ := hx; exact EReal.coe_ne_bot a

theorem of_ne {x : EReal} (h1 : x ≠ ⊤) (h2 : x ≠ ⊥) : IsReal x := by
  induction x using EReal.rec with
  | bot => exact absurd rfl h2
  | coe r => exact ⟨r, rfl⟩
  | top => exact absurd rfl h1

end IsReal

end Cert
-- ==== Proof.FocalLaw.lean ====
/-
  The scalar law of the focal-loss term: on a real logit and a real label indicator the two spellings of the term
  agree, and the two ways of writing the indicator of a channel (an integer word turned into a real, or the outcome of
  an equality test turned into a real) give the same value when the word is 0 or 1.

  For a real logit and a real indicator every intermediate is real: a maximum of reals, a product of reals, the
  exponential of a real (positive, so that one plus it is positive and its logarithm is the real logarithm). So the
  binary cross entropy is real, and so is one minus the exponential of its negation; a real raised to the power 2 is
  its product with itself. On the extended reals "0 - y" is "-y". Finiteness is needed: the power 2 of the bottom
  element is the bottom element, its product with itself is the top element.
-/
import proofs.«420436_j37830071943314_1_alg».proof.Proof.FocalDefs
import proofs.«420436_j37830071943314_1_alg».proof.Proof.LibReal
import Mathlib.Analysis.SpecialFunctions.Pow.Real
import Mathlib.Analysis.SpecialFunctions.Log.Basic

noncomputable section

namespace Cert.Focal

open Idealize.ShloMosaic

/-! ### The float words -/

/-- The word of 0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of -0.5 denotes a real. -/
theorem ofBits_neg_half : Ideal.ofBits .f32 0xBF000000#32 = ((-(1 / 2) : ℝ) : EReal) := by
  simp [Ideal.ofBits, Ideal.ieee, -EReal.coe_mul]; norm_num

/-- The word of 0.75 denotes a real. -/
theorem ofBits_three_quarters : Ideal.ofBits .f32 0x3F400000#32 = ((3 / 4 : ℝ) : EReal) := by
  simp [Ideal.ofBits, Ideal.ieee, -EReal.coe_mul]; norm_num

/-! ### The binary cross entropy of a real logit is real -/

/-- The binary cross entropy on the reals. -/
def bceR (a t : ℝ) : ℝ := (max a 0 - a * t) + Real.log (1 + Real.exp (-(max a (-a))))

/-- The maximum of two reals, seen in the extended reals, is the maximum there. -/
theorem coe_max (a b : ℝ) : ((max a b : ℝ) : EReal) = max (a : EReal) (b : EReal) :=
  EReal.coe_strictMono.monotone.map_max

/-- One plus the exponential of a real is positive, so its logarithm is the real logarithm. -/
theorem log1p_exp_coe (c : ℝ) :
    Ideal.log1p (Ideal.exp (c : EReal)) = ((Real.log (1 + Real.exp c) : ℝ) : EReal) := by
  have hpos : ¬ (1 + Real.exp c ≤ 0) := not_le.mpr (add_pos one_pos (Real.exp_pos c))
  rw [Ideal.exp_coe, Ideal.log1p, ← EReal.coe_one, ← EReal.coe_add, Ideal.log_coe, if_neg hpos]

/-- On a real logit and a real indicator the binary cross entropy is the real one. -/
theorem bce_coe (a t : ℝ) : bce (a : EReal) (t : EReal) = ((bceR a t : ℝ) : EReal) := by
  unfold bce bceR
  rw [ofBits_zero, ← EReal.coe_zero, ← EReal.coe_neg a, ← coe_max, ← coe_max, ← EReal.coe_neg, ← EReal.coe_mul,
    ← EReal.coe_sub, log1p_exp_coe, ← EReal.coe_add]

theorem bce_isReal {x ts : EReal} (hx : Cert.IsReal x) (ht : Cert.IsReal ts) : Cert.IsReal (bce x ts) := by
  obtain ⟨a, rfl⟩ := hx
  obtain ⟨t, rfl⟩ := ht
  exact ⟨bceR a t, bce_coe a t⟩

/-! ### The two spellings agree -/

/-- Negating by "0 - ·" is negating: the two spellings of the binary cross entropy are one function. -/
theorem bceK_eq_bce (x ts : EReal) : bceK x ts = bce x ts := by
  unfold bceK bce
  rw [ofBits_zero, zero_sub]

/-- A real raised to the power 2.0 is its product with itself. -/
theorem pow_two_coe (c : ℝ) :
    Ideal.pow (c : EReal) (Ideal.ofBits .f32 0x40000000#32) = (c : EReal) * (c : EReal) := by
  have h : Real.rpow c 2 = c * c := by
    rw [← sq]; exact Real.rpow_two c
  rw [ofBits_two, Ideal.pow_coe_coe, ← EReal.coe_mul, h]

/-- On a real logit and a real indicator the two spellings of the focal term agree. -/
theorem focalK_eq_focal {x ts : EReal} (hx : Cert.IsReal x) (ht : Cert.IsReal ts) : focalK x ts = focal x ts := by
  obtain ⟨b, hb⟩ := bce_isReal hx ht
  unfold focalK focal
  rw [bceK_eq_bce, ofBits_zero, zero_sub, hb, ofBits_one, ← EReal.coe_neg, Ideal.exp_coe, ← EReal.coe_one,
    ← EReal.coe_sub, pow_two_coe]

/-! ### The law of one element -/

theorem elem_eq (x0 x1 : EReal) (w : BitVec 32) (h0 : Cert.IsReal x0) (h1 : Cert.IsReal x1) (hw : w = 0#32 ∨ w = 1#32) :
    focalK x0 (Ideal.ofBits .f32 0x3F800000#32 - ((w.toInt : ℝ) : EReal)) + focalK x1 ((w.toInt : ℝ) : EReal)
      = focal x0 (((IntOp.cmpi .eq w (BitVec.ofNat 32 0)).toNat : ℝ) : EReal)
        + focal x1 (((IntOp.cmpi .eq w (BitVec.ofNat 32 1)).toNat : ℝ) : EReal) := by
  rcases hw with rfl | rfl
  · have e0 : (IntOp.cmpi .eq (0#32) (BitVec.ofNat 32 0)).toNat = 1 := by decide
    have e1 : (IntOp.cmpi .eq (0#32) (BitVec.ofNat 32 1)).toNat = 0 := by decide
    have t0 : (0#32).toInt = 0 := by decide
    have a1 : (1 : EReal) - (((0 : ℤ) : ℝ) : EReal) = (((1 : ℕ) : ℝ) : EReal) := by simp
    have a0 : (((0 : ℤ) : ℝ) : EReal) = (((0 : ℕ) : ℝ) : EReal) := by simp
    rw [e0, e1, t0, ofBits_one, a1, a0, focalK_eq_focal h0 (Cert.IsReal.coe _), focalK_eq_focal h1 (Cert.IsReal.coe _)]
  · have e0 : (IntOp.cmpi .eq (1#32) (BitVec.ofNat 32 0)).toNat = 0 := by decide
    have e1 : (IntOp.cmpi .eq (1#32) (BitVec.ofNat 32 1)).toNat = 1 := by decide
    have t1 : (1#32).toInt = 1 := by decide
    have a0 : (1 : EReal) - (((1 : ℤ) : ℝ) : EReal) = (((0 : ℕ) : ℝ) : EReal) := by
      rw [Int.cast_one, Nat.cast_zero, ← EReal.coe_one, ← EReal.coe_sub, sub_self]
    have a1 : (((1 : ℤ) : ℝ) : EReal) = (((1 : ℕ) : ℝ) : EReal) := by simp
    rw [e0, e1, t1, ofBits_one, a0, a1, focalK_eq_focal h0 (Cert.IsReal.coe _), focalK_eq_focal h1 (Cert.IsReal.coe _)]

end Cert.Focal

end
-- ==== Proof.SumTiles.lean ====
/-
  A sum over the [4096, 4096, 2] index set, re-indexed by tiles: the rows are cut into 8 blocks of 512 and the
  columns into 4 blocks of 1024, so the sum over all entries is the sum over row block, row in block, column block
  and column in block of the two channel values. Pure re-indexing of a finite sum in a commutative monoid:
  the index set is the product of its three coordinate ranges, `Fin (m * n)` is `Fin m × Fin n` by
  `(a, r) ↦ n a + r`, and a sum over `Fin 2` is the sum of its two terms.
-/
import Mathlib.Algebra.BigOperators.Fin
import Mathlib.Algebra.BigOperators.Group.Finset.Basic
import Mathlib.Data.Fintype.BigOperators
import Mathlib.Logic.Equiv.Fin.Basic
import proofs.«420436_j37830071943314_1_alg».proof.Proof.TileIdx

open scoped BigOperators

namespace Cert.Focal

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `Fin N` with `N = m * n` is the double sum over block `a` and place `r` in the block, read at the
    index `n a + r`. -/
theorem sum_blocks {M : Type*} [AddCommMonoid M] {m n N : Nat} (h : m * n = N) (idx : Fin m → Fin n → Fin N)
    (hidx : ∀ a r, (idx a r).val = n * a.val + r.val) (f : Fin N → M) :
    ∑ b : Fin N, f b = ∑ a : Fin m, ∑ r : Fin n, f (idx a r) := by
  subst h
  rw [← Equiv.sum_comp (finProdFinEquiv (m := m) (n := n)) f, Fintype.sum_prod_type]
  refine Finset.sum_congr rfl fun a _ => Finset.sum_congr rfl fun r _ => ?_
  congr 1
  refine Fin.ext ?_
  rw [hidx, finProdFinEquiv_apply_val]
  exact Nat.add_comm _ _

/-- The sum over the [4096, 4096, 2] index set, by tiles. -/
theorem sum_tiles {M : Type*} [AddCommMonoid M] (g : (⟨3, ![4096, 4096, 2]⟩ : Shape).Idx → M) :
    ∑ j, g j = ∑ a : Fin 8, ∑ r : Fin 512, ∑ p : Fin 4, ∑ l : Fin 1024,
      (g (ix3 (rowOf a r) (colOf p l) (0 : Fin 2)) + g (ix3 (rowOf a r) (colOf p l) (1 : Fin 2))) := by
  rw [sum_idx3, sum_blocks (m := 8) (n := 512) (by norm_num) rowOf rowOf_val]
  refine Finset.sum_congr rfl fun a _ => Finset.sum_congr rfl fun r _ => ?_
  rw [sum_blocks (m := 4) (n := 1024) (by norm_num) colOf colOf_val]
  refine Finset.sum_congr rfl fun p _ => Finset.sum_congr rfl fun l _ => ?_
  rw [Fin.sum_univ_two]

end Cert.Focal
-- ==== Proof.PreFacts.lean ====
/-
  What the precondition says of the inputs, element by element.

  The precondition is the conjunction of two `jnp.all`s: every logit has `|x| < +∞`, and every label word is 0 or 1.
  Read at its one scalar index, the final `and` gives both reductions equal to 1; a reduction by `and` over all axes
  that is 1 had a 1 at every index; and an element's 1 says: `max x (-x) < ⊤` on the extended reals, which excludes
  both infinities, so `x` is a real number; and `(w == 0) | (w == 1)`, so `w` is one of the two words.
-/
import proofs.«420436_j37830071943314_1_alg».proof.Pre_finite_inputs
import proofs.«420436_j37830071943314_1_alg».proof.Proof.LibReal
import Idealize.ShloMosaic.Lib.ReduceAll
import Idealize.ShloMosaic.Lib.StableHlo.Predicate
import Idealize.ShloMosaic.Lib.ValueIdx
import Idealize.ShloMosaic.PureOps.Ideal

namespace Cert.Focal

open Idealize.ShloMosaic

/-- The word `0x7F800000` is `+∞`. -/
theorem ofBits_posInf : Ideal.ofBits .f32 0x7F800000#32 = (⊤ : EReal) := by
  simp [Ideal.ofBits, Ideal.ieee]

/-- An extended real whose absolute value `max x (-x)` is below `+∞` is a real number. -/
theorem isReal_of_abs_lt_top (x : EReal) (h : Ideal.cmp .olt (max x (-x)) (⊤ : EReal) = 1#1) : Cert.IsReal x := by
  have hlt : max x (-x) < (⊤ : EReal) := by
    simpa [Ideal.cmp, StableHlo.Predicate.ofBool_eq_one_iff] using h
  induction x using EReal.rec with
  | bot => simp at hlt
  | coe r => exact Cert.IsReal.coe r
  | top => simp at hlt

/-- A word for which `(w == 0) | (w == 1)` holds is 0 or 1. -/
theorem zero_or_one_of_ori (w : BitVec 32)
    (h : IntOp.ori (IntOp.cmpi .eq w 0#32) (IntOp.cmpi .eq w 1#32) = 1#1) : w = 0#32 ∨ w = 1#32 := by
  rcases IntOp.ori_eq_one.1 h with h | h
  · exact Or.inl (StableHlo.Predicate.cmpi_eq_iff.1 h)
  · exact Or.inr (StableHlo.Predicate.cmpi_eq_iff.1 h)

/-- Under the precondition every logit is a real number and every label word is 0 or 1. -/
theorem facts_of_pre [Cert.Pre_finite_inputs.Facts] (x : FVec Ideal Cert.Pre_finite_inputs.S4096x4096x2 .f32)
    (w : IVec Cert.Pre_finite_inputs.S4096x4096 32)
    (h : Cert.Pre_finite_inputs.fn (F := Ideal) x w = fun _ => 1#1) :
    (∀ i, Cert.IsReal (x i)) ∧ (∀ j, w j = 0#32 ∨ w j = 1#32) := by
  haveI : Subsingleton Cert.Pre_finite_inputs.S_.Idx := ⟨fun a b => funext fun d => d.elim0⟩
  have h0 := congrFun h ValueIdx.ix0
  dsimp only [Cert.Pre_finite_inputs.fn] at h0
  obtain ⟨hx, hw⟩ := IntOp.andi_eq_one.1 h0
  refine ⟨fun i => ?_, fun j => ?_⟩
  · have e := Host.reduce_andi_all _ _ _ _ _ hx i
    refine isReal_of_abs_lt_top (x i) ?_
    rw [← ofBits_posInf]
    exact e
  · have e := Host.reduce_andi_all _ _ _ _ _ hw j
    exact zero_or_one_of_ori (w j) e

end Cert.Focal
-- ==== Proof.Bridge.lean ====
/-
  The two programs return one extended real.

  Under the precondition every logit is a real number and every label is 0 or 1. Then at each position the kernel's
  pair of terms — channel 0 against `1 - label`, channel 1 against `label`, the square spelt as a product — is the
  reference's pair — each channel against its one-hot indicator, the square spelt as the power 2.0 —; and the kernel's
  sum tile by tile is the reference's sum over every index, a re-indexing of one finite sum. Both divide by one word.
-/
import proofs.«420436_j37830071943314_1_alg».proof.Proof.KernelResult
import proofs.«420436_j37830071943314_1_alg».proof.Proof.RefValue
import proofs.«420436_j37830071943314_1_alg».proof.Proof.FocalLaw
import proofs.«420436_j37830071943314_1_alg».proof.Proof.SumTiles
import proofs.«420436_j37830071943314_1_alg».proof.Proof.PreFacts

noncomputable section

open Idealize.ShloMosaic Idealize.ShloMosaic.TcCoe Idealize.SL.Sem
open Idealize.ShloMosaic.ValueIdx

namespace Cert.FocalBridge

open Cert.Focal Cert.FocalRef Cert.KernelIdeal.FocalVal

/-- At one position, for real logits and a label in {0, 1}: the kernel's two terms are the reference's two terms. -/
theorem pos_eq (x : (⟨3, ![4096, 4096, 2]⟩ : Shape).Idx → EReal) (w : (⟨2, ![4096, 4096]⟩ : Shape).Idx → BitVec 32)
    (hx : ∀ i, Cert.IsReal (x i)) (hw : ∀ j, w j = 0#32 ∨ w j = 1#32) (b t : Fin 4096) :
    tileTerm (x (ix3 b t (0 : Fin 2))) (x (ix3 b t (1 : Fin 2))) (w (ix2 b t))
      = focal (x (ix3 b t (0 : Fin 2))) (onehot (w (ix2 b t)) (0 : Fin 2))
        + focal (x (ix3 b t (1 : Fin 2))) (onehot (w (ix2 b t)) (1 : Fin 2)) :=
  elem_eq _ _ _ (hx _) (hx _) (hw _)

/-- The kernel's scalar is the reference's stage for its result, of the same arguments. -/
theorem results_eq (m : (ℓ : Loc Cert.KernelIdeal.nD Cert.KernelIdeal.τ Cert.KernelIdeal.sig) → Buf (Elt Ideal) ℓ)
    (c : Dev Cert.KernelIdeal.nD)
    (hx : ∀ i, Cert.IsReal (m ((c.tc : Thread Cert.KernelIdeal.nD Cert.KernelIdeal.τ).loc Cert.KernelIdeal.main_arg0) i))
    (hw : ∀ j, m ((c.tc : Thread Cert.KernelIdeal.nD Cert.KernelIdeal.τ).loc Cert.KernelIdeal.main_arg1) j = 0#32
      ∨ m ((c.tc : Thread Cert.KernelIdeal.nD Cert.KernelIdeal.τ).loc Cert.KernelIdeal.main_arg1) j = 1#32) :
    result m c = Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext i
  rw [result_apply]
  refine Eq.trans ?_ (ref_read _ _ i).symm
  refine congrArg₂ Ideal.div (congrArg₂ (· + ·) rfl ?_) rfl
  rw [sum_tiles]
  refine Finset.sum_congr rfl fun a _ => Finset.sum_congr rfl fun r _ => Finset.sum_congr rfl fun p _ =>
    Finset.sum_congr rfl fun l _ => ?_
  exact pos_eq _ _ hx hw (rowOf a r) (colOf p l)

end Cert.FocalBridge

end
-- ==== Proof.lean ====
/-
  Focal loss over logits [4096, 4096, 2] and labels [4096, 4096]: the kernel's mean of the focal terms is the
  reference's, as extended reals, for finite logits and labels in {0, 1}.

  The reference weighs each logit against the one-hot indicator of its channel, squares `1 - exp (-bce)` as a power
  2.0, adds all 2 · 4096 · 4096 terms from zero and divides by the count. The kernel splits the two channels into planes,
  walks 8 × 4 tiles of [512, 1024], weighs channel 0 against `1 - label` and channel 1 against `label`, squares by a
  product, keeps a column of 512 running row sums per row block (restarted at the block's first tile), stores the
  column's total at the block's last tile, and the host adds the 8 totals from zero and divides by the same count.

  On labels outside {0, 1} the two weightings differ (`1 - label` is not an indicator), and for an infinite logit the
  power and the product can differ at -∞; under the precondition every logit is real and every label is 0 or 1, each
  position's pair of terms agrees, and the two sums are one finite sum of extended reals re-indexed by tiles.
  The frames are the generated ones; the reference's is its generated run.
-/
import proofs.«420436_j37830071943314_1_alg».proof.Defs
import proofs.«420436_j37830071943314_1_alg».proof.Proof.Gen.Kernel
import proofs.«420436_j37830071943314_1_alg».proof.Proof.Gen.Kernel.Skeleton
import proofs.«420436_j37830071943314_1_alg».proof.Proof.Gen.Kernel.Launch
import proofs.«420436_j37830071943314_1_alg».proof.Proof.Gen.Kernel.Points
import proofs.«420436_j37830071943314_1_alg».proof.Proof.Gen.Kernel.Frame
import proofs.«420436_j37830071943314_1_alg».proof.Proof.Gen.KernelIdeal
import proofs.«420436_j37830071943314_1_alg».proof.Proof.Gen.KernelIdeal.Skeleton
import proofs.«420436_j37830071943314_1_alg».proof.Proof.Gen.KernelIdeal.Launch
import proofs.«420436_j37830071943314_1_alg».proof.Proof.Gen.KernelIdeal.Points
import proofs.«420436_j37830071943314_1_alg».proof.Proof.Gen.KernelIdeal.Frame
import proofs.«420436_j37830071943314_1_alg».proof.Proof.Gen.ReferenceIdeal
import proofs.«420436_j37830071943314_1_alg».proof.Proof.Gen.ReferenceIdeal.Run
import proofs.«420436_j37830071943314_1_alg».proof.Proof.Gen.ReferenceIdeal.Read
import proofs.«420436_j37830071943314_1_alg».proof.Proof.Gen.Pre_finite_inputs
import proofs.«420436_j37830071943314_1_alg».proof.Proof.Bridge
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end, the kernel's at its tile-by-tile mean and the reference's at its mean over every index, of arguments
    that agree: one extended real, by the precondition's two facts. -/
theorem algebraic : Cert.algebraic_KernelIdeal_ReferenceIdeal := by
  intro m ρ m' ρ' hpre hagree
  refine ⟨fun c => Cert.KernelIdeal.FocalVal.result m c, Cert.KernelIdeal.FocalVal.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Focal.facts_of_pre _ _ (hpre c)
  rw [Cert.ReferenceIdeal.Read.val_main_v23_eq, (hagree c).1, (hagree c).2]
  exact (Cert.FocalBridge.results_eq m c hx hw).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
